-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x50000x128 : Shape := ⟨3, ![2, 50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S2x50000x128 : S_.BroadcastsInDim S2x50000x128 (![] : Fin 0 → Fin S2x50000x128.rank)
  reducesTo_S2x50000x128_S_d0_1_2 : S2x50000x128.ReducesTo [0, 1, 2] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S2x50000x128 .f32) (main_arg1 : IVec S800000 32) (main_arg2 : IVec S800000 32) (main_arg3 : FVec F S800000 .f32) (main_arg4 : FVec F S128x128 .f32) (main_arg5 : FVec F S128 .f32) (main_arg6 : FVec F S128 .f32) (main_arg7 : FVec F S128 .f32) : IVec S_ 1 :=
  let main_v0 : FVec F S2x50000x128 .f32 := Host.absf main_arg0
  let main_cst : FVec F S_ .f32 := constant S_ .f32 0x7F800000#32
  let main_v1 : FVec F S2x50000x128 .f32 := broadcastInDim S2x50000x128 ![] bcast_S_S2x50000x128 main_cst
  let main_v2 : IVec S2x50000x128 1 := cmpf .olt main_v0 main_v1
  let main_c : IVec S_ 1 := constantI S_ 1 1#1
  let main_v3 : IVec S_ 1 := (fun x v => Host.reduce IntOp.andi x v reducesTo_S2x50000x128_S_d0_1_2 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S2x50000x128 : Shape := ⟨3, ![2, 50000, 128]⟩
abbrev S800000 : Shape := ⟨1, ![800000]⟩
abbrev S128x128 : Shape := ⟨2, ![128, 128]⟩
abbrev S128 : Shape := ⟨1, ![128]⟩
abbrev S50000x2x128 : Shape := ⟨3, ![50000, 2, 128]⟩
abbrev S50000x256 : Shape := ⟨2, ![50000, 256]⟩
abbrev S_ : Shape := ⟨0, ![]⟩
abbrev S800000x1 : Shape := ⟨2, ![800000, 1]⟩
abbrev S800000x256 : Shape := ⟨2, ![800000, 256]⟩
abbrev S1x128 : Shape := ⟨2, ![1, 128]⟩
abbrev S1x5000x128 : Shape := ⟨3, ![1, 5000, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 33
  | .vmem => 8
  | .smem => 0
  | _ => 0

abbrev bufTy : (tb : Table) → Fin (tcTables nBuf tb) → BufTy
  | .hbm, ⟨0, _⟩ => ⟨S2x50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S50000x2x128, .f32⟩
  | .hbm, ⟨9, _⟩ => ⟨S50000x256, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x256, .f32⟩
  | .hbm, ⟨19, _⟩ => ⟨S800000x1, .f32⟩
  | .hbm, ⟨20, _⟩ => ⟨S800000x256, .f32⟩
  | .hbm, ⟨21, _⟩ => ⟨S800000x256, .f32⟩
  | .hbm, ⟨22, _⟩ => ⟨S_, .f32⟩
  | .hbm, ⟨23, _⟩ => ⟨S50000x256, .f32⟩
  | .hbm, ⟨24, _⟩ => ⟨S800000x1, .i32⟩
  | .hbm, ⟨25, _⟩ => ⟨S50000x256, .f32⟩
  | .hbm, ⟨26, _⟩ => ⟨S50000x2x128, .f32⟩
  | .hbm, ⟨27, _⟩ => ⟨S2x50000x128, .f32⟩
  | .hbm, ⟨28, _⟩ => ⟨S128x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S2x50000x128, .f32⟩
  | .local _ .vmem, ⟨0, _⟩ => ⟨S1x5000x128, .f32⟩
  | .local _ .vmem, ⟨1, _⟩ => ⟨S1x5000x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x5000x128, .f32⟩
  | .local _ .vmem, ⟨7, _⟩ => ⟨S1x5000x128, .f32⟩
  | _, _ => ⟨S2x50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![2, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  transposes_S2x50000x128_S50000x2x128_1_0_2 : S2x50000x128.Transposes [1, 0, 2] S50000x2x128
  shapeCasts_S50000x2x128_S50000x256 : S50000x2x128.ShapeCasts S50000x256
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S50000x256_S50000x2x128 : S50000x256.ShapeCasts S50000x2x128
  transposes_S50000x2x128_S2x50000x128_1_0_2 : S50000x2x128.Transposes [1, 0, 2] S2x50000x128
  transposes_S128x128_S128x128_1_0 : S128x128.Transposes [1, 0] S128x128
  shapeCasts_S128_S1x128 : S128.ShapeCasts S1x128
  inb_S1x5000x128_S1x5000x128_0_0_0 : ∀ a, (![0, 0, 0] : Fin 3 → Nat) a + S1x5000x128.size a ≤ S1x5000x128.size a
  h_S1x5000x128 : 0 < S1x5000x128.numel
  shapeCasts_S1x5000x128_S5000x128 : S1x5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  shapeCasts_S5000x128_S1x5000x128 : S5000x128.ShapeCasts S1x5000x128
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5000x128.size a ≤ S2x50000x128.size a
  hwx0_0 : ∀ i : grid0.Coords, EltTy.bits .f32 = 32 ∨ (Rect.block (s := S2x50000x128) S1x5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x5000x128.size a ≤ S2x50000x128.size a
  hwx0_5 : ∀ i : grid0.Coords, EltTy.bits .f32 = 32 ∨ (Rect.block (s := S2x50000x128) S1x5000x128.size (cc0_transform_5 i) (hinb0_5 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v16) S1x5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x50000x128 : Shape := ⟨3, ![2, 50000, 128]⟩
abbrev S800000 : Shape := ⟨1, ![800000]⟩
abbrev S128x128 : Shape := ⟨2, ![128, 128]⟩
abbrev S128 : Shape := ⟨1, ![128]⟩
abbrev S50000x2x128 : Shape := ⟨3, ![50000, 2, 128]⟩
abbrev S50000x256 : Shape := ⟨2, ![50000, 256]⟩
abbrev S_ : Shape := ⟨0, ![]⟩
abbrev S800000x1 : Shape := ⟨2, ![800000, 1]⟩
abbrev S800000x256 : Shape := ⟨2, ![800000, 256]⟩
abbrev S1x1x128 : Shape := ⟨3, ![1, 1, 128]⟩
abbrev S2x50000 : Shape := ⟨2, ![2, 50000]⟩
abbrev S2x50000x1 : Shape := ⟨3, ![2, 50000, 1]⟩

abbrev nBuf : Space → Nat
  | .hbm => 70
  | .vmem => 0
  | .smem => 0
  | _ => 0

abbrev bufTy : (tb : Table) → Fin (tcTables nBuf tb) → BufTy
  | .hbm, ⟨0, _⟩ => ⟨S2x50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S50000x2x128, .f32⟩
  | .hbm, ⟨9, _⟩ => ⟨S50000x256, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x256, .f32⟩
  | .hbm, ⟨19, _⟩ => ⟨S800000x1, .f32⟩
  | .hbm, ⟨20, _⟩ => ⟨S800000x256, .f32⟩
  | .hbm, ⟨21, _⟩ => ⟨S800000x256, .f32⟩
  | .hbm, ⟨22, _⟩ => ⟨S_, .f32⟩
  | .hbm, ⟨23, _⟩ => ⟨S50000x256, .f32⟩
  | .hbm, ⟨24, _⟩ => ⟨S800000x1, .i32⟩
  | .hbm, ⟨25, _⟩ => ⟨S50000x256, .f32⟩
  | .hbm, ⟨26, _⟩ => ⟨S50000x2x128, .f32⟩
  | .hbm, ⟨27, _⟩ => ⟨S2x50000x128, .f32⟩
  | .hbm, ⟨28, _⟩ => ⟨S2x50000x128, .f32⟩
  | .hbm, ⟨29, _⟩ => ⟨S1x1x128, .f32⟩
  | .hbm, ⟨30, _⟩ => ⟨S2x50000x128, .f32⟩
  | .hbm, ⟨31, _⟩ => ⟨S2x50000x128, .f32⟩
  | .hbm, ⟨32, _⟩ => ⟨S2x50000x128, .f32⟩
  | .hbm, ⟨33, _⟩ => ⟨S2x50000x128, .f32⟩
  | .hbm, ⟨34, _⟩ => ⟨S_, .f32⟩
  | .hbm, ⟨35, _⟩ => ⟨S2x50000x128, .f32⟩
  | .hbm, ⟨36, _⟩ => ⟨S2x50000x128, .f32⟩
  | .hbm, ⟨37, _⟩ => ⟨S_, .f32⟩
  | .hbm, ⟨38, _⟩ => ⟨S2x50000x128, .f32⟩
  | .hbm, ⟨39, _⟩ => ⟨S2x50000x128, .f32⟩
  | .hbm, ⟨40, _⟩ => ⟨S2x50000x128, .f32⟩
  | .hbm, ⟨41, _⟩ => ⟨S_, .f32⟩
  | .hbm, ⟨42, _⟩ => ⟨S2x50000, .f32⟩
  | .hbm, ⟨43, _⟩ => ⟨S2x50000x1, .f32⟩
  | .hbm, ⟨44, _⟩ => ⟨S_, .f32⟩
  | .hbm, ⟨45, _⟩ => ⟨S2x50000x1, .f32⟩
  | .hbm, ⟨46, _⟩ => ⟨S2x50000x1, .f32⟩
  | .hbm, ⟨47, _⟩ => ⟨S2x50000x128, .f32⟩
  | .hbm, ⟨48, _⟩ => ⟨S2x50000x128, .f32⟩
  | .hbm, ⟨49, _⟩ => ⟨S2x50000x128, .f32⟩
  | .hbm, ⟨50, _⟩ => ⟨S_, .f32⟩
  | .hbm, ⟨51, _⟩ => ⟨S2x50000, .f32⟩
  | .hbm, ⟨52, _⟩ => ⟨S2x50000x1, .f32⟩
  | .hbm, ⟨53, _⟩ => ⟨S_, .f32⟩
  | .hbm, ⟨54, _⟩ => ⟨S2x50000x1, .f32⟩
  | .hbm, ⟨55, _⟩ => ⟨S2x50000x1, .f32⟩
  | .hbm, ⟨56, _⟩ => ⟨S2x50000x128, .f32⟩
  | .hbm, ⟨57, _⟩ => ⟨S2x50000x128, .f32⟩
  | .hbm, ⟨58, _⟩ => ⟨S_, .f32⟩
  | .hbm, ⟨59, _⟩ => ⟨S2x50000x1, .f32⟩
  | .hbm, ⟨60, _⟩ => ⟨S2x50000x1, .f32⟩
  | .hbm, ⟨61, _⟩ => ⟨S2x50000x1, .f32⟩
  | .hbm, ⟨62, _⟩ => ⟨S2x50000x128, .f32⟩
  | .hbm, ⟨63, _⟩ => ⟨S2x50000x128, .f32⟩
  | .hbm, ⟨64, _⟩ => ⟨S1x1x128, .f32⟩
  | .hbm, ⟨65, _⟩ => ⟨S2x50000x128, .f32⟩
  | .hbm, ⟨66, _⟩ => ⟨S2x50000x128, .f32⟩
  | .hbm, ⟨67, _⟩ => ⟨S1x1x128, .f32⟩
  | .hbm, ⟨68, _⟩ => ⟨S2x50000x128, .f32⟩
  | .hbm, ⟨69, _⟩ => ⟨S2x50000x128, .f32⟩
  | _, _ => ⟨S2x50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]

class Facts₀ : Prop where
  transposes_S2x50000x128_S50000x2x128_1_0_2 : S2x50000x128.Transposes [1, 0, 2] S50000x2x128
  shapeCasts_S50000x2x128_S50000x256 : S50000x2x128.ShapeCasts S50000x256
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S50000x256_S50000x2x128 : S50000x256.ShapeCasts S50000x2x128
  transposes_S50000x2x128_S2x50000x128_1_0_2 : S50000x2x128.Transposes [1, 0, 2] S2x50000x128
  bcast_S128_S1x1x128_2 : S128.BroadcastsInDim S1x1x128 (![2] : Fin 1 → Fin S1x1x128.rank)
  bcast_S1x1x128_S2x50000x128_0_1_2 : S1x1x128.BroadcastsInDim S2x50000x128 (![0, 1, 2] : Fin 3 → Fin S2x50000x128.rank)
  bcast_S_S2x50000x128 : S_.BroadcastsInDim S2x50000x128 (![] : Fin 0 → Fin S2x50000x128.rank)
  reducesTo_S2x50000x128_S2x50000_d2 : S2x50000x128.ReducesTo [2] S2x50000
  h_S_ : 0 < S_.numel
  bcast_S2x50000_S2x50000x1_0_1 : S2x50000.BroadcastsInDim S2x50000x1 (![0, 1] : Fin 2 → Fin S2x50000x1.rank)
  bcast_S_S2x50000x1 : S_.BroadcastsInDim S2x50000x1 (![] : Fin 0 → Fin S2x50000x1.rank)
  bcast_S2x50000x1_S2x50000x128_0_1_2 : S2x50000x1.BroadcastsInDim S2x50000x128 (![0, 1, 2] : Fin 3 → Fin S2x50000x128.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2x50000x128_S128x128_S2x50000x128_2_1_01_0_n_n_wf : DotDims.WF S2x50000x128 S128x128 S2x50000x128 [2] [1] [0, 1] [0] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2x50000x128_S128x128_S2x50000x128_2_1_01_0_n_n : DotDims S2x50000x128 S128x128 S2x50000x128 where
  lhsContracting := [2]
  rhsContracting := [1]
  lhsNonContracting := [0, 1]
  rhsNonContracting := [0]
  lhsBatch := []
  rhsBatch := []
  wf := dot_S2x50000x128_S128x128_S2x50000x128_2_1_01_0_n_n_wf

class Facts : Prop extends Facts₀ where

variable [Facts]
-- ==== Proof.LayerSpec.lean ====
/-
  What both programs compute once the sparse aggregation has produced an array `y : [2, 50000, 128]`: every row
  `(l, g)` of `y` goes through a linear layer, the SiLU activation and a layer normalisation over its 128 lanes.
  For a row `yrow : Fin 128 → EReal`, a weight `W` and vectors `b`, `γ`, `β`:

      h o   = (∑ k, yrow k · W o k) + b o            the linear layer (contraction over the input lane k)
      s o   = h o · σ (h o)                          SiLU, σ x = 1 / (1 + e^(-x))
      μ     = (∑ o, s o) / 128                       the mean over the lanes
      d o   = s o − μ                                the deviation
      v     = (∑ o, d o · d o) / 128                 the variance
      out o = d o · rsqrt (v + ε) · γ o + β o        normalise, scale, shift

  on the extended reals, with `/` the total quotient `Ideal.div`, `σ` the total `Ideal.logistic` and `rsqrt` the total
  `Ideal.rsqrt`. The divisor 128 and ε are the binary32 words both programs print (`0x43000000`, `0x3727C5AC`): the
  same word on both sides, never evaluated. No law of arithmetic is needed to join the two programs — they apply the
  same operations to the same numbers in the same order; only the ARRANGEMENT differs (a matrix product against the
  transposed weight, block by block, versus one contraction over the whole array; a lane reduction versus a host
  reduction; broadcasts of different shapes). So nothing here asks the inputs to be finite.
-/
import Idealize.ShloMosaic.PureOps.Ideal
import Idealize.ShloMosaic.PureOps.Ideal.Laws
import Idealize.ShloMosaic.Lib.ValueIdx

noncomputable section

open scoped BigOperators

namespace Cert.LayerSpec

open Idealize.ShloMosaic

/-- The divisor of both means: the binary32 word of 128. -/
abbrev lanes : EReal := Ideal.ofBits .f32 0x43000000#32
/-- The layer normalisation's ε: the binary32 word nearest 1e-5. -/
abbrev eps : EReal := Ideal.ofBits .f32 0x3727C5AC#32

/-- The linear layer at output lane `o`: the row against row `o` of the weight, plus the bias. -/
def lin (yrow : Fin 128 → EReal) (W : Fin 128 → Fin 128 → EReal) (b : Fin 128 → EReal) (o : Fin 128) : EReal :=
  (∑ k : Fin 128, yrow k * W o k) + b o

/-- SiLU of the linear layer. -/
def act (yrow : Fin 128 → EReal) (W : Fin 128 → Fin 128 → EReal) (b : Fin 128 → EReal) (o : Fin 128) : EReal :=
  lin yrow W b o * Ideal.logistic (lin yrow W b o)

/-- The mean of the activations over the lanes. -/
def mean (yrow : Fin 128 → EReal) (W : Fin 128 → Fin 128 → EReal) (b : Fin 128 → EReal) : EReal :=
  Ideal.div (∑ o : Fin 128, act yrow W b o) lanes

/-- The deviation from the mean. -/
def dev (yrow : Fin 128 → EReal) (W : Fin 128 → Fin 128 → EReal) (b : Fin 128 → EReal) (o : Fin 128) : EReal :=
  act yrow W b o - mean yrow W b

/-- The variance: the mean of the squared deviations. -/
def var (yrow : Fin 128 → EReal) (W : Fin 128 → Fin 128 → EReal) (b : Fin 128 → EReal) : EReal :=
  Ideal.div (∑ o : Fin 128, dev yrow W b o * dev yrow W b o) lanes

/-- The row's result at lane `o`: the deviation normalised by the variance, scaled by `γ`, shifted by `β`. -/
def rowOut (yrow : Fin 128 → EReal) (W : Fin 128 → Fin 128 → EReal) (b ga be : Fin 128 → EReal) (o : Fin 128) : EReal :=
  dev yrow W b o * Ideal.rsqrt (var yrow W b + eps) * ga o + be o

/-- The row function depends on its arguments entry by entry. -/
theorem rowOut_congr {y y' : Fin 128 → EReal} {W W' : Fin 128 → Fin 128 → EReal} {b b' ga ga' be be' : Fin 128 → EReal}
    {o o' : Fin 128} (hy : ∀ k, y k = y' k) (hW : ∀ o k, W o k = W' o k) (hb : ∀ o, b o = b' o) (hga : ∀ o, ga o = ga' o)
    (hbe : ∀ o, be o = be' o) (ho : o = o') : rowOut y W b ga be o = rowOut y' W' b' ga' be' o' := by
  obtain rfl := ho
  obtain rfl : y = y' := funext hy
  obtain rfl : W = W' := funext fun o => funext (hW o)
  obtain rfl : b = b' := funext hb
  obtain rfl : ga = ga' := funext hga
  obtain rfl : be = be' := funext hbe
  rfl

/-! ## The layer over the whole array -/

/-- The aggregated array's shape: two layers of 50000 rows of 128 lanes. -/
abbrev SY : Shape := ⟨3, ![2, 50000, 128]⟩
/-- The weight's shape. -/
abbrev SW : Shape := ⟨2, ![128, 128]⟩
/-- The bias's, scale's and shift's shape. -/
abbrev SV : Shape := ⟨1, ![128]⟩

/-- The layer's result at layer `l`, row `g`, lane `o`: `rowOut` of row `(l, g)` of `y`. -/
def layerAt (y : SY.Idx → EReal) (W : SW.Idx → EReal) (b ga be : SV.Idx → EReal) (l : Fin 2) (g : Fin 50000) (o : Fin 128) : EReal :=
  rowOut (fun k => y (ValueIdx.ix3 l g k)) (fun o k => W (ValueIdx.ix2 o k)) (fun o => b (ValueIdx.ix1 o)) (fun o => ga (ValueIdx.ix1 o))
    (fun o => be (ValueIdx.ix1 o)) o

/-- The layer's result as one array: what both programs end holding. -/
def layer (y : SY.Idx → EReal) (W : SW.Idx → EReal) (b ga be : SV.Idx → EReal) : SY.Idx → EReal :=
  fun i => layerAt y W b ga be ⟨(i 0).val, (i 0).isLt⟩ ⟨(i 1).val, (i 1).isLt⟩ ⟨(i 2).val, (i 2).isLt⟩

theorem layer_ix3 (y : SY.Idx → EReal) (W : SW.Idx → EReal) (b ga be : SV.Idx → EReal) (l : Fin 2) (g : Fin 50000) (o : Fin 128) :
    layer y W b ga be (ValueIdx.ix3 l g o) = layerAt y W b ga be l g o := rfl

/-- Every index of the array is given by a layer, a row and a lane. -/
theorem exists_ix3 (i : SY.Idx) : ∃ (l : Fin 2) (g : Fin 50000) (o : Fin 128), i = ValueIdx.ix3 l g o :=
  ⟨i 0, i 1, i 2, ValueIdx.eq_ix3 i⟩

/-- The binary32 word `0x3F800000` is the number one. -/
theorem ofBits_one_f32 : Ideal.ofBits .f32 0x3F800000#32 = 1 := by
  simp [Ideal.ofBits, Ideal.ieee, -EReal.coe_mul]; norm_num

/-- The sigmoid spelt out in negation, exponential, sum and quotient — with the literal one as its binary32 word — is
    `Ideal.logistic`, on every extended real (the infinities included: both are the same total function). -/
theorem logistic_expanded (x : EReal) :
    Ideal.div (Ideal.ofBits .f32 0x3F800000#32) (Ideal.ofBits .f32 0x3F800000#32 + Ideal.exp (-x)) = Ideal.logistic x := by
  rw [ofBits_one_f32]; rfl

end Cert.LayerSpec

end
-- ==== Proof.KernelRow.lean ====
/-
  The kernel body's arithmetic, read one element at a time. At a grid point the body holds a block `x0 : [1, 5000, 128]`
  of the aggregated array (5000 consecutive rows of one layer), the transposed weight `x1 : [128, 128]` (entry `(k, o)`
  is `W o k`), and the bias, scale and shift as `[1, 128]` rows `x2`, `x3`, `x4`. Its one stored value is, at row `r`
  and lane `o`, the layer's result for that row (`Cert.LayerSpec.rowOut`): the matrix product against the transposed
  weight is the contraction `∑ k, x0 (0, r, k) · x1 (k, o)`; the two lane reductions are the sums over `o`; the
  column-shaped mean, variance and reciprocal root are broadcast back along the lanes.
  The body is first restated as six staged block functions (linear, activation, mean, deviation, variance, result) whose
  composition IS the printed payload, and each stage is then read at an index.
-/
import proofs.«175219_j78091095376378_1_alg».proof.Proof.Gen.KernelIdeal.Skeleton
import proofs.«175219_j78091095376378_1_alg».proof.Proof.LayerSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Row

open Cert.KernelIdeal Cert.KernelIdeal.Gen Idealize.ShloMosaic Idealize.ShloMosaic.ValueIdx Cert.LayerSpec

/-! ## The matrix product's operand indices -/

/-- The left operand is read at the output's row … -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and the contracted lane; -/
theorem lhs_lane (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the contracted lane … -/
theorem rhs_lane (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and the output's lane. -/
theorem rhs_out (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

variable (x0 : Vec Ideal S1x5000x128 .f32) (x1 : Vec Ideal S128x128 .f32) (x2 x3 x4 : Vec Ideal S1x128 .f32)

/-! ## How the block presents the layer's arguments -/

/-- Row `r` of the block, as a function of the lane. -/
abbrev rowOf (r : Fin 5000) : Fin 128 → EReal := fun k => x0 (ix3 (0 : Fin 1) r k)
/-- The weight read out of its transpose: entry `(o, k)` of the weight is entry `(k, o)` of what the body holds. -/
abbrev weightOf : Fin 128 → Fin 128 → EReal := fun o k => x1 (ix2 k o)
/-- A `[1, 128]` row as a function of the lane. -/
abbrev laneOf (x : Vec Ideal S1x128 .f32) : Fin 128 → EReal := fun o => x (ix2 (0 : Fin 1) o)

/-! ## The body in stages -/

/-- The linear layer on the block: the rows against the transposed weight, plus the bias row. -/
def linB : FVec Ideal S5000x128 .f32 :=
  addf (matmul dot_S5000x128_S128x128_S5000x128_1_0_0_1_n_n none
      (truncf .bf16 (shapeCast S5000x128 x0 shapeCasts_S1x5000x128_S5000x128) bitsLt_bf16_f32)
      (truncf .bf16 (shapeCast S128x128 x1 shapeCasts_S128x128_S128x128) bitsLt_bf16_f32)
      (constant S5000x128 .f32 0x00000000#32))
    (broadcastTo S5000x128 (shapeCast S1x128 x2 shapeCasts_S1x128_S1x128) broadcasts_S1x128_S5000x128)

/-- The linear layer at row `r`, lane `o`. -/
theorem linB_apply (r : Fin 5000) (o : Fin 128) :
    linB x0 x1 x2 (ix2 r o) = lin (rowOf x0 r) (weightOf x1) (laneOf x2) o := by
  unfold linB lin
  refine (congrArg₂ (· + ·)
    (Ideal.matmul_constant_zero_apply dot_S5000x128_S128x128_S5000x128_1_0_0_1_n_n none
      (truncf .bf16 (shapeCast S5000x128 x0 shapeCasts_S1x5000x128_S5000x128) bitsLt_bf16_f32)
      (truncf .bf16 (shapeCast S128x128 x1 shapeCasts_S128x128_S128x128) bitsLt_bf16_f32) (ix2 r o))
    (broadcastTo_1b_ab_apply (shapeCast S1x128 x2 shapeCasts_S1x128_S1x128) broadcasts_S1x128_S5000x128 r o)).trans ?_
  refine congrArg₂ (· + ·) ?_ (congrFun (shapeCast_self x2 shapeCasts_S1x128_S1x128) _)
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r o) ((contrEquiv1 dot_S5000x128_S128x128_S5000x128_1_0_0_1_n_n 128 rfl rfl).symm k) = ix2 r k := funext fun a => Fin.ext (by
    match a with
    | ⟨0, _⟩ => exact lhs_row _ _
    | ⟨1, _⟩ => exact (lhs_lane _ _).trans hk)
  have er : dot_S5000x128_S128x128_S5000x128_1_0_0_1_n_n.rhsIdx (ix2 r o) ((contrEquiv1 dot_S5000x128_S128x128_S5000x128_1_0_0_1_n_n 128 rfl rfl).symm k) = ix2 k o := funext fun a => Fin.ext (by
    match a with
    | ⟨0, _⟩ => exact (rhs_lane _ _).trans hk
    | ⟨1, _⟩ => exact rhs_out _ _)
  rw [el, er]
  exact congrArg₂ (· * ·) (shapeCast_1ab_ab_apply x0 shapeCasts_S1x5000x128_S5000x128 r k)
    (congrFun (shapeCast_self x1 shapeCasts_S128x128_S128x128) (ix2 k o))

/-! ## Columns: a lane sum kept as a column, and a column spread back over the lanes -/

/-- The sum over the lanes of a block, kept as a `[5000, 1]` column, at row `r`: the sum of the block's row. -/
theorem laneSum_apply (v : FVec Ideal S5000x128 .f32) (r : Fin 5000) :
    (shapeCast S5000x1 (multiReduction .add [1] S5000 v 0x00000000#32 reduces_S5000x128_S5000 (.inl rfl) rfl) shapeCasts_S5000_S5000x1) (ix2 r (0 : Fin 1))
      = ∑ o : Fin 128, v (ix2 r o) := by
  refine (shapeCast_apply _ shapeCasts_S5000_S5000x1 (ix2 r (0 : Fin 1)) (ix1 r) ?_).trans ?_
  · rw [Shape.rowMajor_val_one, Shape.rowMajor_val_two]
    show r.val = r.val * 1 + 0
    omega
  · refine (Ideal.multiReduction_add_single v 0x00000000#32 reduces_S5000x128_S5000 (.inl rfl) rfl (ix1 r)).trans ?_
    exact Finset.sum_congr rfl fun k _ => congrArg v (funext fun a => Fin.ext (by match a with | ⟨0, _⟩ => rfl | ⟨1, _⟩ => rfl))

/-- A `[5000, 1]` column broadcast over the 128 lanes reads, at `(r, o)`, the column at row `r`. -/
theorem colBroadcast_apply {α : Type} (col : S5000x1.Idx → α) (r : Fin 5000) (o : Fin 128) :
    broadcastTo S5000x128 col broadcasts_S5000x1_S5000x128 (ix2 r o) = col (ix2 r (0 : Fin 1)) := by
  refine broadcastTo_apply col broadcasts_S5000x1_S5000x128 (ix2 r o) (ix2 r (0 : Fin 1)) fun ax => ?_
  match ax with
  | ⟨0, _⟩ => show r.val = if (5000 : Nat) = 1 then 0 else r.val; rw [if_neg (by decide)]
  | ⟨1, _⟩ => show (0 : Nat) = if (1 : Nat) = 1 then 0 else o.val; rw [if_pos rfl]

/-! ## The remaining stages -/

/-- SiLU on the block. -/
def actB : FVec Ideal S5000x128 .f32 := mulf (linB x0 x1 x2) (logistic (linB x0 x1 x2))

/-- The rows' means, as a column. -/
def meanB : FVec Ideal S5000x1 .f32 :=
  divf (shapeCast S5000x1 (multiReduction .add [1] S5000 (actB x0 x1 x2) 0x00000000#32 reduces_S5000x128_S5000 (.inl rfl) rfl) shapeCasts_S5000_S5000x1)
    (broadcast S5000x1 (Scalar.ofBits (F := Ideal) .f32 0x43000000#32))

/-- The deviations from the rows' means. -/
def devB : FVec Ideal S5000x128 .f32 :=
  subf (actB x0 x1 x2) (broadcastTo S5000x128 (meanB x0 x1 x2) broadcasts_S5000x1_S5000x128)

/-- The rows' variances, as a column. -/
def varB : FVec Ideal S5000x1 .f32 :=
  divf (shapeCast S5000x1 (multiReduction .add [1] S5000 (mulf (devB x0 x1 x2) (devB x0 x1 x2)) 0x00000000#32 reduces_S5000x128_S5000 (.inl rfl) rfl) shapeCasts_S5000_S5000x1)
    (broadcast S5000x1 (Scalar.ofBits (F := Ideal) .f32 0x43000000#32))

/-- The block's result: normalised, scaled and shifted. -/
def outB : FVec Ideal S5000x128 .f32 :=
  addf (mulf (mulf (devB x0 x1 x2)
        (broadcastTo S5000x128 (rsqrt (addf (varB x0 x1 x2) (broadcast S5000x1 (Scalar.ofBits (F := Ideal) .f32 0x3727C5AC#32)))) broadcasts_S5000x1_S5000x128))
      (broadcastTo S5000x128 (shapeCast S1x128 x3 shapeCasts_S1x128_S1x128) broadcasts_S1x128_S5000x128))
    (broadcastTo S5000x128 (shapeCast S1x128 x4 shapeCasts_S1x128_S1x128) broadcasts_S1x128_S5000x128)

/-- The stages compose to the body's printed payload. -/
theorem pay_eq : k0_pay2 (F := Ideal) x0 x1 x2 x3 x4 = outB x0 x1 x2 x3 x4 := rfl

/-! ## Each stage at an index -/

theorem actB_apply (r : Fin 5000) (o : Fin 128) :
    actB x0 x1 x2 (ix2 r o) = act (rowOf x0 r) (weightOf x1) (laneOf x2) o := by
  unfold actB act
  show linB x0 x1 x2 (ix2 r o) * Ideal.logistic (linB x0 x1 x2 (ix2 r o)) = _
  rw [linB_apply]

theorem meanB_apply (r : Fin 5000) :
    meanB x0 x1 x2 (ix2 r (0 : Fin 1)) = mean (rowOf x0 r) (weightOf x1) (laneOf x2) := by
  unfold meanB mean
  exact congrArg (Ideal.div · lanes) ((laneSum_apply _ r).trans (Finset.sum_congr rfl fun o _ => actB_apply x0 x1 x2 r o))

theorem devB_apply (r : Fin 5000) (o : Fin 128) :
    devB x0 x1 x2 (ix2 r o) = dev (rowOf x0 r) (weightOf x1) (laneOf x2) o := by
  unfold devB dev
  exact congrArg₂ (· - ·) (actB_apply x0 x1 x2 r o) ((colBroadcast_apply _ r o).trans (meanB_apply x0 x1 x2 r))

theorem varB_apply (r : Fin 5000) :
    varB x0 x1 x2 (ix2 r (0 : Fin 1)) = var (rowOf x0 r) (weightOf x1) (laneOf x2) := by
  unfold varB var
  exact congrArg (Ideal.div · lanes) ((laneSum_apply _ r).trans
    (Finset.sum_congr rfl fun o _ => congrArg₂ (· * ·) (devB_apply x0 x1 x2 r o) (devB_apply x0 x1 x2 r o)))

theorem outB_apply (r : Fin 5000) (o : Fin 128) :
    outB x0 x1 x2 x3 x4 (ix2 r o) = rowOut (rowOf x0 r) (weightOf x1) (laneOf x2) (laneOf x3) (laneOf x4) o := by
  unfold outB rowOut
  refine congrArg₂ (· + ·) (congrArg₂ (· * ·) (congrArg₂ (· * ·) (devB_apply x0 x1 x2 r o) ?_) ?_) ?_
  · exact (colBroadcast_apply _ r o).trans (congrArg (fun v => Ideal.rsqrt (v + eps)) (varB_apply x0 x1 x2 r))
  · exact (broadcastTo_1b_ab_apply _ broadcasts_S1x128_S5000x128 r o).trans (congrFun (shapeCast_self x3 shapeCasts_S1x128_S1x128) _)
  · exact (broadcastTo_1b_ab_apply _ broadcasts_S1x128_S5000x128 r o).trans (congrFun (shapeCast_self x4 shapeCasts_S1x128_S1x128) _)

/-- THE BODY'S STORED VALUE at row `r`, lane `o` is the layer's result for the block's row `r`. -/
theorem pay_apply (r : Fin 5000) (o : Fin 128) :
    k0_pay2 (F := Ideal) x0 x1 x2 x3 x4 (ix2 r o) = rowOut (rowOf x0 r) (weightOf x1) (laneOf x2) (laneOf x3) (laneOf x4) o :=
  (congrFun (pay_eq x0 x1 x2 x3 x4) (ix2 r o)).trans (outB_apply x0 x1 x2 x3 x4 r o)

end Cert.KernelIdeal.Row

end
-- ==== Proof.KernelArray.lean ====
/-
  What the body leaves in its output block, and the arrays the host operations wrote before the region. At row `r`
  and lane `o` the output block holds the layer's result for row `r` of the input block (the body's one store covers
  the block, and its payload is read in `KernelRow`). The weight reaches the region transposed, the bias, scale and shift
  as `[1, 128]` rows: each of those arrays is read back as the operation that wrote it.
-/
import proofs.«175219_j78091095376378_1_alg».proof.Proof.Gen.KernelIdeal.Value
import proofs.«175219_j78091095376378_1_alg».proof.Proof.KernelRow
import Idealize.ShloMosaic.Lib.StableHlo.Run
import Idealize.ShloMosaic.Lib.Pipeline.Value
import Idealize.ShloMosaic.Lib.ValueLayout

set_option maxRecDepth 16384

noncomputable section

open scoped BigOperators

namespace Cert.KernelIdeal.Arr

open Cert.KernelIdeal Cert.KernelIdeal.Gen Cert.KernelIdeal.Row Idealize.ShloMosaic Idealize.ShloMosaic.TcCoe Idealize.SL.Sem
open Idealize.ShloMosaic.ValueIdx Idealize.ShloMosaic.StableHlo Cert.LayerSpec
open Idealize.ShloMosaic.Pipeline (Dat)

theorem offsets3_zero : (![0, 0, 0] : Fin 3 → Nat) = fun _ => 0 := funext fun a => by fin_cases a <;> rfl
theorem offsets2_zero : (![0, 0] : Fin 2 → Nat) = fun _ => 0 := funext fun a => by fin_cases a <;> rfl

/-! ## What the body leaves in the output block -/

/-- The output block after the body, at row `r` and lane `o`, is the layer's result for row `r` of the input block. -/
theorem out_apply (x0 : Vec Ideal S1x5000x128 .f32) (x1 : Vec Ideal S128x128 .f32) (x2 x3 x4 : Vec Ideal S1x128 .f32)
    (r : Fin 5000) (o : Fin 128) :
    out0_5 x0 x1 x2 x3 x4 (ix3 (0 : Fin 1) r o) = rowOut (rowOf x0 r) (weightOf x1) (laneOf x2) (laneOf x3) (laneOf x4) o := by
  unfold out0_5
  rw [Cert.KernelIdeal.Value.canon5_eq]
  show k0_pay2 (F := Ideal) (View.ld x0 r0_0) (View.ld x1 r0_1) (View.ld x2 r0_2) (View.ld x3 r0_2) (View.ld x4 r0_2)
    (Cert.KernelIdeal.Value.ix5_0 (ix3 (0 : Fin 1) r o)) = _
  simp only [View.ld_unit_zero (S := S1x5000x128) offsets3_zero, View.ld_unit_zero (S := S128x128) offsets2_zero, View.ld_unit_zero (S := S1x128) offsets2_zero]
  have e : Cert.KernelIdeal.Value.ix5_0 (ix3 (0 : Fin 1) r o) = ix2 r o :=
    funext fun a => Fin.ext (by match a with | ⟨0, _⟩ => rfl | ⟨1, _⟩ => rfl)
  rw [e]
  exact pay_apply x0 x1 x2 x3 x4 r o

variable (m : (ℓ : Loc nD τ sig) → Buf (Elt Ideal) ℓ) (ρ : Dev nD → PrngReg)

/-! ## The arrays the host wrote before the region -/

/-- The second window's array is the weight, transposed. -/
theorem V_weightT (c : Dev nD) : (V m c main_v17 : S128x128.Idx → EReal)
    = transpose S128x128 [1, 0] (m ((c : Thread nD τ).loc main_arg4)) transposes_S128x128_S128x128_1_0 := by
  dsimp only [Gen.V, Gen.hostOps0]; after_results <;> rfl

/-- The third, fourth and fifth windows' arrays are the bias, the scale and the shift as `[1, 128]` rows. -/
theorem V_bias (c : Dev nD) : (V m c main_v18 : S1x128.Idx → EReal)
    = shapeCast S1x128 (m ((c : Thread nD τ).loc main_arg5)) shapeCasts_S128_S1x128 := by
  dsimp only [Gen.V, Gen.hostOps0]; after_results <;> rfl
theorem V_scale (c : Dev nD) : (V m c main_v19 : S1x128.Idx → EReal)
    = shapeCast S1x128 (m ((c : Thread nD τ).loc main_arg6)) shapeCasts_S128_S1x128 := by
  dsimp only [Gen.V, Gen.hostOps0]; after_results <;> rfl
theorem V_shift (c : Dev nD) : (V m c main_v20 : S1x128.Idx → EReal)
    = shapeCast S1x128 (m ((c : Thread nD τ).loc main_arg7)) shapeCasts_S128_S1x128 := by
  dsimp only [Gen.V, Gen.hostOps0]; after_results <;> rfl

end Cert.KernelIdeal.Arr

end
-- ==== Proof.KernelBlocks.lean ====
/-
  Where each window's block sits on the grid, and each input block read back to its array. The grid has 2 × 10
  points; at point `(l, g)` the aggregated array's block is rows `5000·g … 5000·g + 4999` of layer `l` — the same place
  as the output block — while the transposed weight and the bias, scale and shift rows are whole arrays at every
  point. So an entry of the first input block is an entry of the aggregated array at the block's offset, an entry
  `(k, o)` of the second is the weight's entry `(o, k)`, and lane `o` of the other three is entry `o` of the vector.
-/
import proofs.«175219_j78091095376378_1_alg».proof.Proof.KernelArray
import Idealize.ShloMosaic.Lib.Pipeline.Value
import Idealize.ShloMosaic.Lib.ValueLayout

set_option maxRecDepth 16384

noncomputable section

open scoped BigOperators

namespace Cert.KernelIdeal.Blocks

open Cert.KernelIdeal Cert.KernelIdeal.Gen Cert.KernelIdeal.Row Cert.KernelIdeal.Arr Idealize.ShloMosaic Idealize.ShloMosaic.TcCoe Idealize.SL.Sem
open Idealize.ShloMosaic.ValueIdx Cert.LayerSpec
open Idealize.ShloMosaic.Pipeline (Dat)

variable (m : (ℓ : Loc nD τ sig) → Buf (Elt Ideal) ℓ) (ρ : Dev nD → PrngReg)

/-! ## The grid: where each window's block sits -/

/-- The printed index maps, decided over the 20 grid points: the input block of the aggregated array sits where the
    output block does (same layer, same group of 5000 rows, all lanes); the weight, bias, scale and shift windows
    are whole arrays at every point. -/
theorem blocks_aligned : ∀ t : Fin cfg0.N,
    win0_0.index t (0 : Fin 3) = win0_5.index t (0 : Fin 3) ∧ win0_0.index t (1 : Fin 3) = win0_5.index t (1 : Fin 3)
    ∧ win0_0.index t (2 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Every (layer, group of rows) is some point's output block. -/
theorem every_group_is_a_point : ∀ (q0 : Fin 2) (q1 : Fin 10), ∃ t : Fin cfg0.N, win0_5.index t = ![q0.val, q1.val, 0] :=
  (by decide +kernel : ∀ (q0 : Fin 2) (q1 : Fin 10), ∃ t : Fin grid0.N, win0_5.index t = ![q0.val, q1.val, 0])

/-! ## A block read through its window, for any array -/

/-- Entry `x` of the first window's block of an array `A` is `A` at the block's offset plus `x`. -/
theorem read_agg (t : Fin cfg0.N) (A : (⟨S2x50000x128, .f32⟩ : BufTy).Contents (Elt Ideal)) (x : S1x5000x128.Idx) (i : S2x50000x128.Idx)
    (h0 : (i 0).val = win0_0.index t (0 : Fin 3) * 1 + 1 * (x 0).val)
    (h1 : (i 1).val = win0_0.index t (1 : Fin 3) * 5000 + 1 * (x 1).val)
    (h2 : (i 2).val = win0_0.index t (2 : Fin 3) * 128 + 1 * (x 2).val) :
    (((cfg0.win 0).blk t).view.read (Elt Ideal) A : Vec Ideal S1x5000x128 .f32) x = A i := by
  rw [View.read_apply]
  show A _ = A i
  refine congrArg A (funext fun a => Fin.ext ?_)
  match a with
  | ⟨0, _⟩ => show win0_0.index t (0 : Fin 3) * 1 + 1 * (x 0).val = (i 0).val; omega
  | ⟨1, _⟩ => show win0_0.index t (1 : Fin 3) * 5000 + 1 * (x 1).val = (i 1).val; omega
  | ⟨2, _⟩ => show win0_0.index t (2 : Fin 3) * 128 + 1 * (x 2).val = (i 2).val; omega

/-- The second window's block of a `[128, 128]` array is the whole array. -/
theorem read_weight (t : Fin cfg0.N) (A : (⟨S128x128, .f32⟩ : BufTy).Contents (Elt Ideal)) (k o : Fin 128) :
    (((cfg0.win 1).blk t).view.read (Elt Ideal) A : Vec Ideal S128x128 .f32) (ix2 k o) = A (ix2 k o) := by
  obtain ⟨-, -, -, -, e10, e11, -⟩ := blocks_aligned t
  rw [View.read_apply]
  show A _ = A (ix2 k o)
  refine congrArg A (funext fun a => Fin.ext ?_)
  match a with
  | ⟨0, _⟩ => show win0_1.index t (0 : Fin 2) * 128 + 1 * k.val = k.val; omega
  | ⟨1, _⟩ => show win0_1.index t (1 : Fin 2) * 128 + 1 * o.val = o.val; omega

/-- The third, fourth and fifth windows' blocks of a `[1, 128]` array are the whole row. -/
theorem read_row2 (t : Fin cfg0.N) (A : (⟨S1x128, .f32⟩ : BufTy).Contents (Elt Ideal)) (o : Fin 128) :
    (((cfg0.win 2).blk t).view.read (Elt Ideal) A : Vec Ideal S1x128 .f32) (ix2 (0 : Fin 1) o) = A (ix2 (0 : Fin 1) o) := by
  obtain ⟨-, -, -, -, -, -, e20, e21, -⟩ := blocks_aligned t
  rw [View.read_apply]
  show A _ = A (ix2 (0 : Fin 1) o)
  refine congrArg A (funext fun a => Fin.ext ?_)
  match a with
  | ⟨0, _⟩ => show win0_2.index t (0 : Fin 2) * 1 + 1 * 0 = 0; omega
  | ⟨1, _⟩ => show win0_2.index t (1 : Fin 2) * 128 + 1 * o.val = o.val; omega
theorem read_row3 (t : Fin cfg0.N) (A : (⟨S1x128, .f32⟩ : BufTy).Contents (Elt Ideal)) (o : Fin 128) :
    (((cfg0.win 3).blk t).view.read (Elt Ideal) A : Vec Ideal S1x128 .f32) (ix2 (0 : Fin 1) o) = A (ix2 (0 : Fin 1) o) := by
  obtain ⟨-, -, -, -, -, -, -, -, e30, e31, -⟩ := blocks_aligned t
  rw [View.read_apply]
  show A _ = A (ix2 (0 : Fin 1) o)
  refine congrArg A (funext fun a => Fin.ext ?_)
  match a with
  | ⟨0, _⟩ => show win0_3.index t (0 : Fin 2) * 1 + 1 * 0 = 0; omega
  | ⟨1, _⟩ => show win0_3.index t (1 : Fin 2) * 128 + 1 * o.val = o.val; omega
theorem read_row4 (t : Fin cfg0.N) (A : (⟨S1x128, .f32⟩ : BufTy).Contents (Elt Ideal)) (o : Fin 128) :
    (((cfg0.win 4).blk t).view.read (Elt Ideal) A : Vec Ideal S1x128 .f32) (ix2 (0 : Fin 1) o) = A (ix2 (0 : Fin 1) o) := by
  obtain ⟨-, -, -, -, -, -, -, -, -, -, e40, e41⟩ := blocks_aligned t
  rw [View.read_apply]
  show A _ = A (ix2 (0 : Fin 1) o)
  refine congrArg A (funext fun a => Fin.ext ?_)
  match a with
  | ⟨0, _⟩ => show win0_4.index t (0 : Fin 2) * 1 + 1 * 0 = 0; omega
  | ⟨1, _⟩ => show win0_4.index t (1 : Fin 2) * 128 + 1 * o.val = o.val; omega

/-! ## The input blocks, read back to the arrays -/

/-- The aggregated array's block at a point: entry `x` of the block is the array's entry at the block's offset plus `x`. -/
theorem iblk_agg (c : Dev nD) (t : Fin cfg0.N) (x : S1x5000x128.Idx) (i : S2x50000x128.Idx)
    (h0 : (i 0).val = win0_0.index t (0 : Fin 3) * 1 + 1 * (x 0).val)
    (h1 : (i 1).val = win0_0.index t (1 : Fin 3) * 5000 + 1 * (x 1).val)
    (h2 : (i 2).val = win0_0.index t (2 : Fin 3) * 128 + 1 * (x 2).val) :
    (iblk m c 0 t : Vec Ideal S1x5000x128 .f32) x = (V m c main_v16 : S2x50000x128.Idx → EReal) i := by
  unfold iblk
  exact read_agg t _ x i h0 h1 h2

/-- The weight's block is the whole transposed weight: entry `(k, o)` is the weight's entry `(o, k)`. -/
theorem iblk_weight (c : Dev nD) (t : Fin cfg0.N) (k o : Fin 128) :
    (iblk m c 1 t : Vec Ideal S128x128 .f32) (ix2 k o) = (m ((c : Thread nD τ).loc main_arg4) : S128x128.Idx → EReal) (ix2 o k) := by
  unfold iblk
  exact (read_weight t _ k o).trans ((congrFun (V_weightT m c) (ix2 k o)).trans
    (transpose_ix2_apply _ transposes_S128x128_S128x128_1_0 k o))

/-- The bias's block is the whole `[1, 128]` row: lane `o` is the bias's entry `o`. -/
theorem iblk_bias (c : Dev nD) (t : Fin cfg0.N) (o : Fin 128) :
    (iblk m c 2 t : Vec Ideal S1x128 .f32) (ix2 (0 : Fin 1) o) = (m ((c : Thread nD τ).loc main_arg5) : S128.Idx → EReal) (ix1 o) := by
  unfold iblk
  exact (read_row2 t _ o).trans ((congrFun (V_bias m c) (ix2 (0 : Fin 1) o)).trans
    (shapeCast_a_1a_apply _ shapeCasts_S128_S1x128 (0 : Fin 1) o))

/-- The scale's block, likewise. -/
theorem iblk_scale (c : Dev nD) (t : Fin cfg0.N) (o : Fin 128) :
    (iblk m c 3 t : Vec Ideal S1x128 .f32) (ix2 (0 : Fin 1) o) = (m ((c : Thread nD τ).loc main_arg6) : S128.Idx → EReal) (ix1 o) := by
  unfold iblk
  exact (read_row3 t _ o).trans ((congrFun (V_scale m c) (ix2 (0 : Fin 1) o)).trans
    (shapeCast_a_1a_apply _ shapeCasts_S128_S1x128 (0 : Fin 1) o))

/-- The shift's block, likewise. -/
theorem iblk_shift (c : Dev nD) (t : Fin cfg0.N) (o : Fin 128) :
    (iblk m c 4 t : Vec Ideal S1x128 .f32) (ix2 (0 : Fin 1) o) = (m ((c : Thread nD τ).loc main_arg7) : S128.Idx → EReal) (ix1 o) := by
  unfold iblk
  exact (read_row4 t _ o).trans ((congrFun (V_shift m c) (ix2 (0 : Fin 1) o)).trans
    (shapeCast_a_1a_apply _ shapeCasts_S128_S1x128 (0 : Fin 1) o))

end Cert.KernelIdeal.Blocks

end
-- ==== Proof.KernelResult.lean ====
/-
  From blocks to the whole result array. Point `(l, g)` writes rows `5000·g … 5000·g + 4999` of layer `l`; what it writes
  at `(r, o)` is the layer's result for row `5000·g + r` of layer `l` of the aggregated array, because its input block holds
  exactly those rows. The 20 output blocks tile the array (row `g` of layer `l` lies in the block of point
  `(l, g / 5000)`), so after the run the result array is `Cert.LayerSpec.layer` of the aggregated array as the region finds
  it and of the weight, bias, scale and shift arguments.
-/
import proofs.«175219_j78091095376378_1_alg».proof.Proof.KernelBlocks
import Idealize.ShloMosaic.Lib.Pipeline.Value
import Idealize.ShloMosaic.Lib.ValueLayout

set_option maxRecDepth 16384

noncomputable section

open scoped BigOperators

namespace Cert.KernelIdeal.Result

open Cert.KernelIdeal Cert.KernelIdeal.Gen Cert.KernelIdeal.Row Cert.KernelIdeal.Arr Cert.KernelIdeal.Blocks Idealize.ShloMosaic Idealize.ShloMosaic.TcCoe Idealize.SL.Sem
open Idealize.ShloMosaic.ValueIdx Cert.LayerSpec
open Idealize.ShloMosaic.Pipeline (Dat)

variable (m : (ℓ : Loc nD τ sig) → Buf (Elt Ideal) ℓ) (ρ : Dev nD → PrngReg)

/-! ## The result array -/

/-- What the result array ends holding: the layer of the aggregated array as the region finds it and of the weight,
    bias, scale and shift arguments. -/
def result (c : Dev nD) : S2x50000x128.Idx → EReal :=
  layer (V m c main_v16) (m ((c : Thread nD τ).loc main_arg4)) (m ((c : Thread nD τ).loc main_arg5))
    (m ((c : Thread nD τ).loc main_arg6)) (m ((c : Thread nD τ).loc main_arg7))

/-- What point `t` leaves in its output block at `(0, r, o)` is the result array's entry under it. -/
theorem written_at (c : Dev nD) (t : Fin cfg0.N) (r : Fin 5000) (o : Fin 128) :
    out0_5 (iblk m c 0 t) (iblk m c 1 t) (iblk m c 2 t) (iblk m c 3 t) (iblk m c 4 t) (ix3 (0 : Fin 1) r o)
      = result m c (((cfg0.win 5).blk t).view.emb (ix3 (0 : Fin 1) r o)) := by
  obtain ⟨e00, e01, e02, e52, -⟩ := blocks_aligned t
  refine (out_apply (iblk m c 0 t) (iblk m c 1 t) (iblk m c 2 t) (iblk m c 3 t) (iblk m c 4 t) r o).trans ?_
  unfold result layer layerAt
  refine rowOut_congr (fun k => ?_) (fun o' k => iblk_weight m c t k o') (fun o' => iblk_bias m c t o')
    (fun o' => iblk_scale m c t o') (fun o' => iblk_shift m c t o') (Fin.ext ?_)
  · refine iblk_agg m c t (ix3 (0 : Fin 1) r k) _ ?_ ?_ ?_
    · show win0_5.index t (0 : Fin 3) * 1 + 1 * 0 = win0_0.index t (0 : Fin 3) * 1 + 1 * 0; omega
    · show win0_5.index t (1 : Fin 3) * 5000 + 1 * r.val = win0_0.index t (1 : Fin 3) * 5000 + 1 * r.val; omega
    · show k.val = win0_0.index t (2 : Fin 3) * 128 + 1 * k.val; omega
  · show o.val = win0_5.index t (2 : Fin 3) * 128 + 1 * o.val; omega

/-- The output window's blocks are whole: what is written back is all of the staging buffer's contents. -/
theorem cut_out (t : Fin cfg0.N) (X : Vec Ideal S1x5000x128 .f32) : (cfg0.win 5).cut (grid0.coords t) X = X := rfl

/-- The output window's block of an array `G`, at `j`, is `G` at the block's offset plus `j`. -/
theorem read_out (t : Fin cfg0.N) (G : (⟨S2x50000x128, .f32⟩ : BufTy).Contents (Elt Ideal)) (j : S1x5000x128.Idx) :
    (((cfg0.win 5).blk t).view.read (Elt Ideal) G : Vec Ideal S1x5000x128 .f32) j = G (((cfg0.win 5).blk t).view.emb j) := by
  rw [View.read_apply]
  rfl

/-- Every index of a block is given by its (one) leading coordinate, a row and a lane. -/
theorem exists_blk (j : S1x5000x128.Idx) : ∃ (r : Fin 5000) (o : Fin 128), j = ix3 (0 : Fin 1) r o := by
  refine ⟨j 1, j 2, funext fun a => Fin.ext ?_⟩
  match a with
  | ⟨0, _⟩ => have h : (j 0).val < 1 := (j 0).isLt; show (j 0).val = 0; omega
  | ⟨1, _⟩ => rfl
  | ⟨2, _⟩ => rfl

/-- WHAT POINT `t` WRITES BACK is its block of the result array. -/
theorem written_back (c : Dev nD) (t : Fin cfg0.N) :
    (dats m 0 c).flushed 5 t = ((cfg0.win 5).blk t).view.read (Elt Ideal) (result m c) := by
  rw [Cert.KernelIdeal.Value.flushed5, cut_out]
  funext j
  rw [read_out]
  obtain ⟨r, o, rfl⟩ := exists_blk j
  exact written_at m c t r o

/-- An index of the result array is in point `t`'s block iff each coordinate is in the block's range on its axis. -/
theorem mem_outBlock_iff (t : Fin cfg0.N) (i : S2x50000x128.Idx) :
    i ∈ ((cfg0.win 5).blk t).view.set ↔ ∀ a : Fin 3, win0_5.index t a * S1x5000x128.size a ≤ (i a).val ∧ (i a).val < win0_5.index t a * S1x5000x128.size a + S1x5000x128.size a := by
  show i ∈ ((View.whole main_v21).slice (win0_5.rect t)).set ↔ _
  rw [View.set_slice_whole, Rect.mem_set_unit]
  exact Iff.rfl

/-- The 20 output blocks cover the result array: row `g` of layer `l` is in the block of point `(l, g / 5000)`. -/
theorem outBlocks_cover (i : S2x50000x128.Idx) : ∃ t : Fin cfg0.N, (cfg0.win 5).flush t = true ∧ i ∈ ((cfg0.win 5).blk t).view.set := by
  have h0 : (i 0).val < 2 := (i 0).isLt
  have h1 : (i 1).val < 50000 := (i 1).isLt
  have h2 : (i 2).val < 128 := (i 2).isLt
  obtain ⟨t, ht⟩ := every_group_is_a_point ⟨(i 0).val, h0⟩ ⟨(i 1).val / 5000, by omega⟩
  have q0 : win0_5.index t (0 : Fin 3) = (i 0).val := congrFun ht 0
  have q1 : win0_5.index t (1 : Fin 3) = (i 1).val / 5000 := congrFun ht 1
  have q2 : win0_5.index t (2 : Fin 3) = 0 := congrFun ht 2
  refine ⟨t, flush0_5 t, ?_⟩
  rw [mem_outBlock_iff]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 5000 ≤ (i 1).val ∧ (i 1).val < win0_5.index t (1 : Fin 3) * 5000 + 5000; omega
  | ⟨2, _⟩ => show win0_5.index t (2 : Fin 3) * 128 ≤ (i 2).val ∧ (i 2).val < win0_5.index t (2 : Fin 3) * 128 + 128; omega

/-- THE RESULT ARRAY after the run. -/
theorem result_array (c : Dev nD) : (dats m 0 c).arrAt 5 cfg0.N = result m c :=
  (dats m 0 c).arrAt_eq_of_cover 5 (result m c) (fun t _ => written_back m c t) outBlocks_cover

/-- The kernel's run, read: the result array at the layer of the aggregated array, the arguments unchanged. -/
theorem run : θ_run defs (onTc (τ := τ) (main (F := Ideal))) ⟨m, fun _ => 0, ρ⟩ fun r => ∀ c : Dev nD,
      r.2.mem ((c : Thread nD τ).loc main_v21) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (result_array m c), (h c).2⟩) (Cert.KernelIdeal.Value.run_blocks m ρ)

end Cert.KernelIdeal.Result

end
-- ==== Proof.RefLayer.lean ====
/-
  The reference, read one element at a time. After the sparse aggregation (the array `val_main_v16` of the arguments:
  kept whole, never opened) the reference contracts the aggregated array's lane axis against the weight's second axis,
  adds the bias, applies SiLU with the sigmoid spelt out in negation, exponential, sum and quotient, takes the mean and
  the variance over the lanes by two host reductions from zero, and normalises, scales and shifts. Stage by stage, at
  layer `l`, row `g` and lane `o`, this is `Cert.LayerSpec`'s row function of row `(l, g)` of the aggregated array:
  the composed index maps of the broadcasts and reductions are identified coordinate by coordinate, the reductions'
  initial zero is dropped, and the spelt-out sigmoid is the total `Ideal.logistic`.
-/
import proofs.«175219_j78091095376378_1_alg».proof.Proof.Gen.ReferenceIdeal.Read
import proofs.«175219_j78091095376378_1_alg».proof.Proof.LayerSpec
import Idealize.ShloMosaic.Lib.ValueIdx
import Idealize.ShloMosaic.PureOps.Ideal.Laws

noncomputable section

open scoped BigOperators

namespace Cert.ReferenceIdeal.Layer

open Cert.ReferenceIdeal Cert.ReferenceIdeal.Gen Cert.ReferenceIdeal.Read Idealize.ShloMosaic Idealize.ShloMosaic.ValueIdx Cert.LayerSpec

variable (x0 : (⟨S2x50000x128, .f32⟩ : BufTy).Contents (Elt Ideal)) (x1 x2 : (⟨S800000, .i32⟩ : BufTy).Contents (Elt Ideal))
  (x3 : (⟨S800000, .f32⟩ : BufTy).Contents (Elt Ideal)) (x4 : (⟨S128x128, .f32⟩ : BufTy).Contents (Elt Ideal))
  (x5 x6 x7 : (⟨S128, .f32⟩ : BufTy).Contents (Elt Ideal))

/-- Row `(l, g)` of the aggregated array, as a function of the lane. -/
abbrev rowAt (l : Fin 2) (g : Fin 50000) : Fin 128 → EReal := fun k => val_main_v16 (F := Ideal) x0 x1 x2 x3 (ix3 l g k)
/-- The weight by output lane and input lane. -/
abbrev weightAt : Fin 128 → Fin 128 → EReal := fun o k => x4 (ix2 o k)
/-- A `[128]` vector as a function of the lane. -/
abbrev laneAt (x : (⟨S128, .f32⟩ : BufTy).Contents (Elt Ideal)) : Fin 128 → EReal := fun o => x (ix1 o)

/-- The linear layer. -/
theorem lin_ref (l : Fin 2) (g : Fin 50000) (o : Fin 128) :
    val_main_v20 (F := Ideal) x0 x1 x2 x3 x4 x5 (ix3 l g o) = lin (rowAt x0 x1 x2 x3 l g) (weightAt x4) (laneAt x5) o := by
  rw [val_main_v20_apply, val_main_v17_apply, val_main_v19_apply, val_main_v18_apply]
  have el : ∀ k : Fin 128, lidx_main_v17 (ix3 l g o) k = ix3 l g k := fun k => funext fun a => Fin.ext (by match a with | ⟨0, _⟩ => rfl | ⟨1, _⟩ => rfl | ⟨2, _⟩ => rfl)
  have er : ∀ k : Fin 128, ridx_main_v17 (ix3 l g o) k = ix2 o k := fun k => funext fun a => Fin.ext (by match a with | ⟨0, _⟩ => rfl | ⟨1, _⟩ => rfl)
  have eb : idx_main_v18 (idx_main_v19 (ix3 l g o)) = ix1 o := funext fun a => Fin.ext (by match a with | ⟨0, _⟩ => rfl)
  simp only [el, er, eb]
  rfl

/-- SiLU: the spelt-out sigmoid is the total logistic function. -/
theorem act_ref (l : Fin 2) (g : Fin 50000) (o : Fin 128) :
    val_main_v27 (F := Ideal) x0 x1 x2 x3 x4 x5 (ix3 l g o) = act (rowAt x0 x1 x2 x3 l g) (weightAt x4) (laneAt x5) o := by
  rw [val_main_v27_apply, val_main_v26_apply, val_main_v25_apply, val_main_cst_2_apply, val_main_v24_apply, val_main_v23_apply,
    val_main_cst_1_apply, val_main_v22_apply, val_main_v21_apply, lin_ref]
  simp only [Ideal.mulf_def, Ideal.hostDivf_def, Ideal.ofBits_def, Ideal.addf_def, Ideal.hostUnary_exp_def, Ideal.hostNegf_def,
    Ideal.negf_def]
  rw [logistic_expanded]
  rfl

/-- The mean over the lanes: the host reduction from zero, divided by 128. -/
theorem mean_ref (l : Fin 2) (g : Fin 50000) :
    val_main_v31 (F := Ideal) x0 x1 x2 x3 x4 x5 (ix3 l g (0 : Fin 1)) = mean (rowAt x0 x1 x2 x3 l g) (weightAt x4) (laneAt x5) := by
  rw [val_main_v31_apply, val_main_v29_apply, val_main_v28_apply, val_main_cst_3_apply, val_main_v30_apply, val_main_cst_4_apply]
  unfold mean
  refine congrArg (Ideal.div · lanes) ?_
  refine (congrArg (· + _) Ideal.ofBits_zero_f32).trans ((zero_add _).trans (Finset.sum_congr rfl fun k _ => ?_))
  have e : idx_main_v28 (idx_main_v29 (ix3 l g (0 : Fin 1))) k = ix3 l g k := funext fun a => Fin.ext (by match a with | ⟨0, _⟩ => rfl | ⟨1, _⟩ => rfl | ⟨2, _⟩ => rfl)
  rw [e]
  exact act_ref x0 x1 x2 x3 x4 x5 l g k

/-- The deviation from the mean (the reference computes it twice, from the same mean). -/
theorem dev_ref (l : Fin 2) (g : Fin 50000) (o : Fin 128) :
    val_main_v33 (F := Ideal) x0 x1 x2 x3 x4 x5 (ix3 l g o) = dev (rowAt x0 x1 x2 x3 l g) (weightAt x4) (laneAt x5) o := by
  rw [val_main_v33_apply, val_main_v32_apply, act_ref]
  have e : idx_main_v32 (ix3 l g o) = ix3 l g (0 : Fin 1) := funext fun a => Fin.ext (by match a with | ⟨0, _⟩ => rfl | ⟨1, _⟩ => rfl | ⟨2, _⟩ => rfl)
  rw [e, mean_ref]
  rfl
theorem dev_ref' (l : Fin 2) (g : Fin 50000) (o : Fin 128) :
    val_main_v40 (F := Ideal) x0 x1 x2 x3 x4 x5 (ix3 l g o) = dev (rowAt x0 x1 x2 x3 l g) (weightAt x4) (laneAt x5) o := by
  rw [val_main_v40_apply, val_main_v39_apply, act_ref]
  have e : idx_main_v39 (ix3 l g o) = ix3 l g (0 : Fin 1) := funext fun a => Fin.ext (by match a with | ⟨0, _⟩ => rfl | ⟨1, _⟩ => rfl | ⟨2, _⟩ => rfl)
  rw [e, mean_ref]
  rfl

/-- The variance: the host reduction from zero of the squared deviations, divided by 128. -/
theorem var_ref (l : Fin 2) (g : Fin 50000) :
    val_main_v38 (F := Ideal) x0 x1 x2 x3 x4 x5 (ix3 l g (0 : Fin 1)) = var (rowAt x0 x1 x2 x3 l g) (weightAt x4) (laneAt x5) := by
  rw [val_main_v38_apply, val_main_v36_apply, val_main_v35_apply, val_main_cst_5_apply, val_main_v37_apply, val_main_cst_6_apply]
  unfold var
  refine congrArg (Ideal.div · lanes) ?_
  refine (congrArg (· + _) Ideal.ofBits_zero_f32).trans ((zero_add _).trans (Finset.sum_congr rfl fun k _ => ?_))
  have e : idx_main_v35 (idx_main_v36 (ix3 l g (0 : Fin 1))) k = ix3 l g k := funext fun a => Fin.ext (by match a with | ⟨0, _⟩ => rfl | ⟨1, _⟩ => rfl | ⟨2, _⟩ => rfl)
  rw [e, val_main_v34_apply, dev_ref]
  rfl

/-- The result at `(l, g, o)`. -/
theorem out_ref (l : Fin 2) (g : Fin 50000) (o : Fin 128) :
    val_main_v51 (F := Ideal) x0 x1 x2 x3 x4 x5 x6 x7 (ix3 l g o)
      = layerAt (val_main_v16 (F := Ideal) x0 x1 x2 x3) x4 x5 x6 x7 l g o := by
  rw [val_main_v51_apply, val_main_v48_apply, val_main_v45_apply, dev_ref', val_main_v44_apply, val_main_v43_apply,
    val_main_v42_apply, val_main_v41_apply, val_main_cst_7_apply, val_main_v47_apply, val_main_v46_apply, val_main_v50_apply,
    val_main_v49_apply]
  have e44 : idx_main_v44 (ix3 l g o) = ix3 l g (0 : Fin 1) := funext fun a => Fin.ext (by match a with | ⟨0, _⟩ => rfl | ⟨1, _⟩ => rfl | ⟨2, _⟩ => rfl)
  have e47 : idx_main_v46 (idx_main_v47 (ix3 l g o)) = ix1 o := funext fun a => Fin.ext (by match a with | ⟨0, _⟩ => rfl)
  have e50 : idx_main_v49 (idx_main_v50 (ix3 l g o)) = ix1 o := funext fun a => Fin.ext (by match a with | ⟨0, _⟩ => rfl)
  rw [e44, var_ref, e47, e50]
  rfl

/-- THE REFERENCE'S RESULT is the layer of the aggregated array, the weight, the bias, the scale and the shift. -/
theorem result_eq : val_main_v51 (F := Ideal) x0 x1 x2 x3 x4 x5 x6 x7
    = layer (val_main_v16 (F := Ideal) x0 x1 x2 x3) x4 x5 x6 x7 := by
  funext i
  obtain ⟨l, g, o, rfl⟩ := exists_ix3 i
  rw [layer_ix3]
  exact out_ref x0 x1 x2 x3 x4 x5 x6 x7 l g o

end Cert.ReferenceIdeal.Layer

end
-- ==== Proof.Aggregation.lean ====
/-
  Both programs begin with the same sparse aggregation: the input is laid out as `[50000, 256]` rows, the rows named by
  the column indices are gathered (negative indices wrapped once by 50000), each gathered row is scaled by its edge
  value, the scaled rows are scatter-added into 50000 zero rows at the row indices, and the result is laid out again as
  `[2, 50000, 128]`. The kernel's program performs these operations on the host before its region; the reference
  performs the same operations before its linear layer. So the array the kernel's region finds is the reference's
  aggregation stage of the same four arguments — operation for operation the same term, compared here and never
  evaluated.
-/
import proofs.«175219_j78091095376378_1_alg».proof.Proof.Gen.KernelIdeal.Frame
import proofs.«175219_j78091095376378_1_alg».proof.Proof.Gen.ReferenceIdeal.Read
import Idealize.ShloMosaic.Lib.StableHlo.Run

set_option maxRecDepth 16384

noncomputable section

namespace Cert.Aggregation

open Idealize.ShloMosaic Idealize.ShloMosaic.TcCoe Idealize.SL.Sem Idealize.ShloMosaic.StableHlo

/-- The aggregated array as the kernel's region finds it is the reference's aggregation of the same arguments. -/
theorem agg_eq (m : (ℓ : Loc Cert.KernelIdeal.nD Cert.KernelIdeal.τ Cert.KernelIdeal.sig) → Buf (Elt Ideal) ℓ) (c : Dev Cert.KernelIdeal.nD) :
    (Cert.KernelIdeal.Gen.V m c Cert.KernelIdeal.main_v16 : Cert.KernelIdeal.S2x50000x128.Idx → EReal)
      = Cert.ReferenceIdeal.Read.val_main_v16 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3)) := by
  dsimp only [Cert.KernelIdeal.Gen.V, Cert.KernelIdeal.Gen.hostOps0]
  after_results_simp
  unfold Cert.ReferenceIdeal.Read.val_main_v16 Cert.ReferenceIdeal.Read.val_main_v15 Cert.ReferenceIdeal.Read.val_main_v14 Cert.ReferenceIdeal.Read.val_main_v13 Cert.ReferenceIdeal.Read.val_main_v12 Cert.ReferenceIdeal.Read.val_main_cst Cert.ReferenceIdeal.Read.val_main_v11 Cert.ReferenceIdeal.Read.val_main_v10 Cert.ReferenceIdeal.Read.val_main_v9 Cert.ReferenceIdeal.Read.val_main_v8 Cert.ReferenceIdeal.Read.val_main_v7 Cert.ReferenceIdeal.Read.val_main_v6 Cert.ReferenceIdeal.Read.val_main_v5 Cert.ReferenceIdeal.Read.val_main_v4 Cert.ReferenceIdeal.Read.val_main_c_0 Cert.ReferenceIdeal.Read.val_main_v3 Cert.ReferenceIdeal.Read.val_main_v2 Cert.ReferenceIdeal.Read.val_main_c Cert.ReferenceIdeal.Read.val_main_v1 Cert.ReferenceIdeal.Read.val_main_v0
  rfl

end Cert.Aggregation

end
-- ==== Proof.lean ====
/-
  A fused graph layer against its jnp reference, over the extended reals. Input `x : [2, 50000, 128]`, an edge list
  (`rows`, `cols`, `vals`, 800000 edges), a weight `W : [128, 128]` and vectors `b`, `γ`, `β : [128]`. Both programs first
  aggregate `x` along the edges (gather the rows `cols`, scale by `vals`, scatter-add at `rows`) into
  `y : [2, 50000, 128]`, with the same host operations; then every row of `y` goes through

      h = y · Wᵀ + b,   s = h · σ(h),   μ = mean s,   d = s − μ,   v = mean d²,   out = d · rsqrt (v + ε) · γ + β.

  The kernel does this in one pipelined region over a 2 × 10 grid, 5000 rows at a time: the matrix product against the
  transposed weight (its operands narrowed to bf16 and widened back, the identity on the extended reals), the sigmoid as
  one operation, the two means as lane reductions divided by 128. The reference does it on the host over the whole
  array: one contraction against `W`'s second axis, the sigmoid spelt out as `1 / (1 + e^(−h))`, the two means as host
  reductions from zero divided by 128. The divisor, ε and every other literal are the same binary32 words on both
  sides. On the extended reals the two are the same operations on the same numbers in the same order, so the two
  results are equal element by element with no appeal to finiteness of the inputs:
    * the aggregated array the kernel's region finds is the reference's aggregation stage (`Aggregation`);
    * the kernel's result array is the layer of that array (`KernelRow`, `KernelArray`, `KernelBlocks`, `KernelResult`);
    * the reference's result is the layer of that array (`RefLayer`);
  with the layer itself stated once (`LayerSpec`). The frames are the generated ones (the reference's is its run with the
  result dropped), and the idealization changed no operation, so nothing is owed for it.
-/
import proofs.«175219_j78091095376378_1_alg».proof.Defs
import proofs.«175219_j78091095376378_1_alg».proof.Proof.Gen.Kernel
import proofs.«175219_j78091095376378_1_alg».proof.Proof.Gen.Kernel.Skeleton
import proofs.«175219_j78091095376378_1_alg».proof.Proof.Gen.Kernel.Launch
import proofs.«175219_j78091095376378_1_alg».proof.Proof.Gen.Kernel.Points
import proofs.«175219_j78091095376378_1_alg».proof.Proof.Gen.Kernel.Frame
import proofs.«175219_j78091095376378_1_alg».proof.Proof.Gen.KernelIdeal
import proofs.«175219_j78091095376378_1_alg».proof.Proof.Gen.KernelIdeal.Skeleton
import proofs.«175219_j78091095376378_1_alg».proof.Proof.Gen.KernelIdeal.Launch
import proofs.«175219_j78091095376378_1_alg».proof.Proof.Gen.KernelIdeal.Points
import proofs.«175219_j78091095376378_1_alg».proof.Proof.Gen.KernelIdeal.Frame
import proofs.«175219_j78091095376378_1_alg».proof.Proof.Gen.ReferenceIdeal
import proofs.«175219_j78091095376378_1_alg».proof.Proof.Gen.Pre_finite_inputs
import proofs.«175219_j78091095376378_1_alg».proof.Proof.Gen.KernelIdeal.Value
import proofs.«175219_j78091095376378_1_alg».proof.Proof.Gen.ReferenceIdeal.Run
import proofs.«175219_j78091095376378_1_alg».proof.Proof.Gen.ReferenceIdeal.Read
import proofs.«175219_j78091095376378_1_alg».proof.Proof.LayerSpec
import proofs.«175219_j78091095376378_1_alg».proof.Proof.KernelResult
import proofs.«175219_j78091095376378_1_alg».proof.Proof.RefLayer
import proofs.«175219_j78091095376378_1_alg».proof.Proof.Aggregation
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end holding the layer of the aggregated array: the kernel's result array by its blocks, the
    reference's by its stages, the aggregated array the same function of the arguments on both sides. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v51_eq, Cert.ReferenceIdeal.Layer.result_eq, h0, h1, h2, h3, h4, h5, h6, h7]
  show _ = Cert.KernelIdeal.Result.result m c
  unfold Cert.KernelIdeal.Result.result
  rw [Cert.Aggregation.agg_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
